-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S512x1024 : Shape := ⟨2, ![512, 1024]⟩
abbrev S1024x1024 : Shape := ⟨2, ![1024, 1024]⟩
abbrev S1x1024 : Shape := ⟨2, ![1, 1024]⟩

abbrev nBuf : Space → Nat
  | .hbm => 5
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S1x4096, .f32⟩
  | .hbm, ⟨4, _⟩ => ⟨S8192x4096, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4096_S1x4096 : S4096.ShapeCasts S1x4096
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x4096.size a
  hwx0_0 : ∀ i : grid0.Coords, EltTy.bits .f32 = 32 ∨ (Rect.block (s := S8192x4096) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S8192x4096.size a
  hwx0_3 : ∀ i : grid0.Coords, EltTy.bits .f32 = 32 ∨ (Rect.block (s := S8192x4096) S512x1024.size (cc0_transform_3 i) (hinb0_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩

abbrev nBuf : Space → Nat
  | .hbm => 55
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S8192x4096, .f32⟩
  | .hbm, ⟨4, _⟩ => ⟨S_, .f32⟩
  | .hbm, ⟨5, _⟩ => ⟨S8192x4096, .f32⟩
  | .hbm, ⟨6, _⟩ => ⟨S8192x4096, .i1⟩
  | .hbm, ⟨7, _⟩ => ⟨S_, .f32⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S_, .f32⟩
  | .hbm, ⟨12, _⟩ => ⟨S8192x4096, .f32⟩
  | .hbm, ⟨13, _⟩ => ⟨S8192x4096, .i1⟩
  | .hbm, ⟨14, _⟩ => ⟨S_, .f32⟩
  | .hbm, ⟨15, _⟩ => ⟨S8192x4096, .f32⟩
  | .hbm, ⟨16, _⟩ => ⟨S8192x4096, .f32⟩
  | .hbm, ⟨17, _⟩ => ⟨S8192x4096, .f32⟩
  | .hbm, ⟨18, _⟩ => ⟨S_, .f32⟩
  | .hbm, ⟨19, _⟩ => ⟨S8192x4096, .f32⟩
  | .hbm, ⟨20, _⟩ => ⟨S8192x4096, .f32⟩
  | .hbm, ⟨21, _⟩ => ⟨S_, .f32⟩
  | .hbm, ⟨22, _⟩ => ⟨S8192x4096, .f32⟩
  | .hbm, ⟨23, _⟩ => ⟨S8192x4096, .f32⟩
  | .hbm, ⟨24, _⟩ => ⟨S8192x4096, .f32⟩
  | .hbm, ⟨25, _⟩ => ⟨S8192x4096, .f32⟩
  | .hbm, ⟨26, _⟩ => ⟨S8192x4096, .f32⟩
  | .hbm, ⟨27, _⟩ => ⟨S_, .f32⟩
  | .hbm, ⟨28, _⟩ => ⟨S8192x4096, .f32⟩
  | .hbm, ⟨29, _⟩ => ⟨S8192x4096, .f32⟩
  | .hbm, ⟨30, _⟩ => ⟨S8192x4096, .f32⟩
  | .hbm, ⟨31, _⟩ => ⟨S_, .f32⟩
  | .hbm, ⟨32, _⟩ => ⟨S8192x4096, .f32⟩
  | .hbm, ⟨33, _⟩ => ⟨S8192x4096, .f32⟩
  | .hbm, ⟨34, _⟩ => ⟨S8192x4096, .f32⟩
  | .hbm, ⟨35, _⟩ => ⟨S_, .f32⟩
  | .hbm, ⟨36, _⟩ => ⟨S8192x4096, .f32⟩
  | .hbm, ⟨37, _⟩ => ⟨S8192x4096, .f32⟩
  | .hbm, ⟨38, _⟩ => ⟨S_, .f32⟩
  | .hbm, ⟨39, _⟩ => ⟨S8192x4096, .f32⟩
  | .hbm, ⟨40, _⟩ => ⟨S8192x4096, .f32⟩
  | .hbm, ⟨41, _⟩ => ⟨S8192x4096, .f32⟩
  | .hbm, ⟨42, _⟩ => ⟨S8192x4096, .f32⟩
  | .hbm, ⟨43, _⟩ => ⟨S8192x4096, .f32⟩
  | .hbm, ⟨44, _⟩ => ⟨S_, .f32⟩
  | .hbm, ⟨45, _⟩ => ⟨S8192x4096, .f32⟩
  | .hbm, ⟨46, _⟩ => ⟨S8192x4096, .f32⟩
  | .hbm, ⟨47, _⟩ => ⟨S8192x4096, .f32⟩
  | .hbm, ⟨48, _⟩ => ⟨S_, .f32⟩
  | .hbm, ⟨49, _⟩ => ⟨S8192x4096, .f32⟩
  | .hbm, ⟨50, _⟩ => ⟨S8192x4096, .f32⟩
  | .hbm, ⟨51, _⟩ => ⟨S8192x4096, .f32⟩
  | .hbm, ⟨52, _⟩ => ⟨S1x4096, .f32⟩
  | .hbm, ⟨53, _⟩ => ⟨S8192x4096, .f32⟩
  | .hbm, ⟨54, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_cst_4 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_6 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_v25 : Ref sig .tc := ⟨.hbm, 37, rfl⟩
abbrev main_cst_8 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_9 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_10 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩

abbrev nD : Nat := 1
abbrev τ : Topo := Topo.v7x

variable {F : FTy → Type} [FloatOps F]

class Facts₀ : Prop where
  bcast_S_S8192x4096 : S_.BroadcastsInDim S8192x4096 (![] : Fin 0 → Fin S8192x4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Pieces.lean ====
/-
  What each control case of the kernel body leaves behind, as a pure term of what it loaded.

  The body keeps a running [512, 1024] accumulator. At the first K-step of a tile it is reset to zero and the step's
  partial product is added; at a later K-step the partial product is added to what the step before left; at the last
  K-step the accumulated block is, in addition, pushed through the activation chain, the bias row is added, and the
  result is stored into the output block.
-/
import proofs.«155839_j3556232922082_1_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

/-- The offset of a store or load that spans a whole rank-2 block. -/
theorem off0 : (![0, 0] : Fin 2 → Nat) = fun _ => 0 := by
  funext a; fin_cases a <;> rfl

/-- First K-step: the accumulator ends at the zero block plus the step's partial product. -/
theorem acc_first (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : cond0_0 i) (hc1 : ¬cond0_1 i)
    (x0 : Vec F S512x1024 .f32) (x1 : Vec F S1024x1024 .f32) (x2 : Vec F S1x1024 .f32) :
    sout0_A_0 c i arg3 harg3 arg4 harg4 arg5 harg5 arg6 harg6 arg7 harg7 hc0 hc1 x0 x1 x2 = k0_pay2 x0 x1 (k0_pay1 (F := F)) := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S512x1024) off0]
  simp only [View.readAt_eq_ld, harg3.read_unread, harg4.read_unread, View.ld_unit_zero (S := S512x1024) off0,
    View.ld_unit_zero (S := S1024x1024) off0, View.readCov_unit_zero (S := S512x1024) _ off0]

/-- A middle K-step: the step's partial product is added to what the step before left. -/
theorem acc_middle (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : ¬cond0_0 i) (hc1 : ¬cond0_1 i)
    (x0 : Vec F S512x1024 .f32) (x1 : Vec F S1024x1024 .f32) (x2 : Vec F S1x1024 .f32) (xs0 : Vec F S512x1024 .f32) :
    sout0_B_0 c i arg3 harg3 arg4 harg4 arg5 harg5 arg6 harg6 arg7 harg7 hc0 hc1 x0 x1 x2 xs0 = k0_pay2 x0 x1 xs0 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero (S := S512x1024) off0]
  simp only [View.readAt_eq_ld, harg3.read_unread, harg4.read_unread, harg7.read_unread, View.ld_unit_zero (S := S512x1024) off0,
    View.ld_unit_zero (S := S1024x1024) off0]

/-- The last K-step leaves the same in the accumulator … -/
theorem acc_last (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : ¬cond0_0 i) (hc1 : cond0_1 i)
    (x0 : Vec F S512x1024 .f32) (x1 : Vec F S1024x1024 .f32) (x2 : Vec F S1x1024 .f32) (xs0 : Vec F S512x1024 .f32) :
    sout0_C_0 c i arg3 harg3 arg4 harg4 arg5 harg5 arg6 harg6 arg7 harg7 hc0 hc1 x0 x1 x2 xs0 = k0_pay2 x0 x1 xs0 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero (S := S512x1024) off0]
  simp only [View.readAt_eq_ld, harg3.read_unread, harg4.read_unread, harg7.read_unread, View.ld_unit_zero (S := S512x1024) off0,
    View.ld_unit_zero (S := S1024x1024) off0]

/-- … and stores into the output block the activation chain of that accumulated block plus the bias row. -/
theorem out_last (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : ¬cond0_0 i) (hc1 : cond0_1 i)
    (x0 : Vec F S512x1024 .f32) (x1 : Vec F S1024x1024 .f32) (x2 : Vec F S1x1024 .f32) (xs0 : Vec F S512x1024 .f32) :
    out0_C_3 c i arg3 harg3 arg4 harg4 arg5 harg5 arg6 harg6 arg7 harg7 hc0 hc1 x0 x1 x2 xs0 = k0_pay3 (k0_pay2 x0 x1 xs0) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero (S := S512x1024) off0]
  simp only [View.readAt_eq_ld, harg3.read_unread, harg4.read_unread, harg5.read_unread, harg7.read_unread,
    View.ld_unit_zero (S := S512x1024) off0, View.ld_unit_zero (S := S1024x1024) off0, View.ld_unit_zero (S := S1x1024) off0,
    View.readCov_unit_zero (S := S512x1024) _ off0]

end Cert.KernelIdeal.Pieces

end
-- ==== Proof.Spec.lean ====
/-
  The function both programs compute, and the one law of sums that joins their two arrangements of it.

  For x : [8192, 4096], w : [4096, 4096] (read as K × N) and b : [4096], the result at (p, q) is

      act (∑ κ < 4096, x (p, κ) · w (κ, q)) + b q,

  where act is two leaky-relu steps followed by two tanh-gelu steps, every constant the f32 word both programs print.
  The kernel reaches the inner sum in four blocks of 1024 consecutive κ, adding each block's sum to a running total
  that starts at zero; the reference takes the sum in one piece. On the extended reals addition is commutative and
  associative, so the two agree: a sum over the first n + k indices is the sum over the first n plus the sum over the
  next k. No finiteness of the inputs is needed.
-/
import Idealize.ShloMosaic.PureOps.Ideal.Laws
import Idealize.ShloMosaic.Lib.ValueIdx

noncomputable section

open scoped BigOperators

namespace Cert.GemmAct

open Idealize.ShloMosaic Idealize.ShloMosaic.ValueIdx

/-! ## The elementwise chain on one extended real -/

/-- A leaky-relu step: `a` itself where `a > 0`, else the slope word times `a`. -/
def leaky (a : EReal) : EReal :=
  Scalar.select (Ideal.cmp .ogt a (Ideal.ofBits .f32 0x00000000#32)) a (Ideal.ofBits .f32 0x3C23D70A#32 * a)

/-- A tanh-gelu step, associated as both programs associate it: `(½·v) · (1 + tanh (c · (v + ((a·v)·v)·v)))`. -/
def gelu (v : EReal) : EReal :=
  (Ideal.ofBits .f32 0x3F000000#32 * v)
    * (Ideal.ofBits .f32 0x3F800000#32
        + Ideal.tanh (Ideal.ofBits .f32 0x3F4C422A#32 * (v + ((Ideal.ofBits .f32 0x3D372713#32 * v) * v) * v)))

/-- The whole chain: leaky, leaky, gelu, gelu. -/
def act (a : EReal) : EReal := gelu (gelu (leaky (leaky a)))

/-! ## The contraction, whole and in prefixes -/

/-- The arrays' shapes, as literals. -/
abbrev SX : Shape := ⟨2, ![8192, 4096]⟩
abbrev SW : Shape := ⟨2, ![4096, 4096]⟩
abbrev SB : Shape := ⟨1, ![4096]⟩

variable (x : SX.Idx → EReal) (w : SW.Idx → EReal) (b : SB.Idx → EReal)

/-- Term κ of the product at (p, q); beyond the contraction's extent (never read) it is zero. -/
def term (p : Fin 8192) (q : Fin 4096) (κ : ℕ) : EReal :=
  if h : κ < 4096 then x (ix2 p ⟨κ, h⟩) * w (ix2 ⟨κ, h⟩ q) else 0

/-- The sum of the first `n` terms of the product at (p, q). -/
def psum (p : Fin 8192) (q : Fin 4096) (n : ℕ) : EReal := ∑ κ ∈ Finset.range n, term x w p q κ

theorem psum_zero (p : Fin 8192) (q : Fin 4096) : psum x w p q 0 = 0 := by
  unfold psum; rw [Finset.range_zero, Finset.sum_empty]

/-- All 4096 terms: the reference's one sum. -/
theorem psum_full (p : Fin 8192) (q : Fin 4096) :
    psum x w p q 4096 = ∑ κ : Fin 4096, x (ix2 p κ) * w (ix2 κ q) := by
  unfold psum
  rw [Finset.sum_range]
  refine Finset.sum_congr rfl fun κ _ => ?_
  unfold term
  rw [dif_pos κ.isLt]

/-- One more block of 1024 terms: the prefix of length `n0 + 1024` is the prefix of length `n0` plus the block's own
    sum, the block's terms read at `n0 + j`. -/
theorem psum_block (p : Fin 8192) (q : Fin 4096) (n0 : ℕ) (h : n0 + 1024 ≤ 4096) :
    psum x w p q (n0 + 1024)
      = psum x w p q n0
        + ∑ j : Fin 1024, x (ix2 p ⟨n0 + j.val, by have := j.isLt; omega⟩) * w (ix2 ⟨n0 + j.val, by have := j.isLt; omega⟩ q) := by
  unfold psum
  rw [Finset.sum_range_add (term x w p q) n0 1024, Finset.sum_range (fun j => term x w p q (n0 + j))]
  congr 1
  refine Finset.sum_congr rfl fun j _ => ?_
  unfold term
  rw [dif_pos (by have := j.isLt; omega)]

/-! ## The result -/

/-- The result array: the chain of the full contraction, plus the bias entry of the column. -/
def G : SX.Idx → EReal := fun i =>
  act (∑ κ : Fin 4096, x (ix2 (i 0) κ) * w (ix2 κ (i 1))) + b (ix1 (i 1))

theorem G_apply (p : Fin 8192) (q : Fin 4096) :
    G x w b (ix2 p q) = act (psum x w p q 4096) + b (ix1 q) := by
  rw [psum_full]; rfl

end Cert.GemmAct

end
-- ==== Proof.LibPlainDot.lean ====
/-
  A plain matrix product read at an index.

  For dimension numbers that contract the left operand's axis 1 with the right operand's axis 0 and have no batch
  axes, the accelerator's matmul into a zero accumulator and the host's dot_general are, at the extended reals, both
  the sum over the contracted coordinate κ of the products l (p, κ) * r (κ, q).
-/
import Idealize.ShloMosaic.PureOps.Ideal.Laws
import Idealize.ShloMosaic.Lib.ValueIdx

noncomputable section

open scoped BigOperators

namespace Idealize.ShloMosaic.PlainDot
open Idealize.ShloMosaic Idealize.ShloMosaic.ValueIdx

/-- M×K by K×N: the left operand's axis 1 contracted with the right's axis 0, no batch axes. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Axes
variable {M K N : Nat} (d : DotDims ⟨2, ![M, K]⟩ ⟨2, ![K, N]⟩ ⟨2, ![M, N]⟩) (hd : IsPlain d)
include hd

/-- A plain product contracts exactly one axis. -/
theorem contr_rank : d.contr.rank = 1 := by
  rw [d.rank_contr, hd.lc]; rfl

/-- The contracted axis has the common extent K. -/
theorem contr_size : d.contr.size ⟨0, by rw [contr_rank d hd]; exact Nat.one_pos⟩ = K := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's row coordinate is the output's row coordinate. -/
theorem lhs_axis0 (j : (⟨2, ![M, N]⟩ : Shape).Idx) (k : d.contr.Idx) : (d.lhsIdx j k 0).val = (j 0).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's column coordinate is the contracted coordinate. -/
theorem lhs_axis1 (j : (⟨2, ![M, N]⟩ : Shape).Idx) (k : d.contr.Idx) :
    (d.lhsIdx j k 1).val = (k ⟨0, by rw [contr_rank d hd]; exact Nat.one_pos⟩).val :=
  d.lhsIdx_val_of_single hd.lc j k

/-- The right operand's row coordinate is the contracted coordinate. -/
theorem rhs_axis0 (j : (⟨2, ![M, N]⟩ : Shape).Idx) (k : d.contr.Idx) :
    (d.rhsIdx j k 0).val = (k ⟨0, by rw [contr_rank d hd]; exact Nat.one_pos⟩).val :=
  d.rhsIdx_val_of_single hd.rc j k

/-- The right operand's column coordinate is the output's column coordinate. -/
theorem rhs_axis1 (j : (⟨2, ![M, N]⟩ : Shape).Idx) (k : d.contr.Idx) : (d.rhsIdx j k 1).val = (j 1).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The sum over the contraction index of a plain product, re-indexed by the contracted coordinate: the operands are
    read at (p, κ) and (κ, q). -/
theorem sum_contr_plain {φ₁ φ₂ : FTy} (l : FVec Ideal ⟨2, ![M, K]⟩ φ₁) (r : FVec Ideal ⟨2, ![K, N]⟩ φ₂)
    (p : Fin M) (q : Fin N) :
    ∑ k : d.contr.Idx, l (d.lhsIdx (ix2 p q) k) * r (d.rhsIdx (ix2 p q) k) = ∑ κ : Fin K, l (ix2 p κ) * r (ix2 κ q) := by
  refine (Equiv.sum_comp (contrEquiv1 d K (contr_rank d hd) (contr_size d hd)).symm _).symm.trans ?_
  refine Finset.sum_congr rfl fun κ _ => ?_
  have hl : d.lhsIdx (ix2 p q) ((contrEquiv1 d K (contr_rank d hd) (contr_size d hd)).symm κ) = ix2 p κ := by
    funext a
    match a with
    | ⟨0, _⟩ => exact Fin.ext (lhs_axis0 d hd _ _)
    | ⟨1, _⟩ => exact Fin.ext ((lhs_axis1 d hd _ _).trans (contrEquiv1_symm_val d K _ _ κ))
  have hr : d.rhsIdx (ix2 p q) ((contrEquiv1 d K (contr_rank d hd) (contr_size d hd)).symm κ) = ix2 κ q := by
    funext a
    match a with
    | ⟨0, _⟩ => exact Fin.ext ((rhs_axis0 d hd _ _).trans (contrEquiv1_symm_val d K _ _ κ))
    | ⟨1, _⟩ => exact Fin.ext (rhs_axis1 d hd _ _)
  rw [hl, hr]

end Axes

/-- The accelerator's matmul into the zero accumulator, for plain dimension numbers, at (p, q): the sum over κ of
    l (p, κ) * r (κ, q). -/
theorem matmul_zero_plain {M K N : Nat} {φ₁ φ₂ : FTy} (d : DotDims ⟨2, ![M, K]⟩ ⟨2, ![K, N]⟩ ⟨2, ![M, N]⟩) (hd : IsPlain d)
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ κ : Fin K, l (ix2 p κ) * r (ix2 κ q) :=
  (Ideal.matmul_constant_zero_apply d prec l r (ix2 p q)).trans (sum_contr_plain d hd l r p q)

/-- The host's dot_general, for plain dimension numbers, at (p, q): the same sum, whatever the schedule. -/
theorem dotGeneral_plain {M K N : Nat} {φ₁ φ₂ : FTy} (d : DotDims ⟨2, ![M, K]⟩ ⟨2, ![K, N]⟩ ⟨2, ![M, N]⟩) (hd : IsPlain d)
    (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ κ : Fin K, l (ix2 p κ) * r (ix2 κ q) :=
  (Ideal.dotGeneral_apply d prec sched l r (ix2 p q)).trans (sum_contr_plain d hd l r p q)

end Idealize.ShloMosaic.PlainDot

end
-- ==== Proof.Payloads.lean ====
/-
  The kernel body's three payloads, read at an index on the extended reals.

  The reset stores the zero block. The accumulation step stores, at (p, q), what the accumulator held there plus the
  sum over the block's 1024 contracted indices of x-block (p, κ) · w-block (κ, q): the narrowing to bf16 before the
  matrix unit is the identity on extended reals, and the matrix unit's product into a zero accumulator is that sum.
  The epilogue stores the scalar chain of the accumulated entry plus the bias row's entry of the column.
-/
import proofs.«155839_j3556232922082_1_alg».proof.Proof.Gen.KernelIdeal.Skeleton
import proofs.«155839_j3556232922082_1_alg».proof.Proof.Spec
import proofs.«155839_j3556232922082_1_alg».proof.Proof.LibPlainDot
import Idealize.ShloMosaic.Lib.Pipeline.Value

noncomputable section

open scoped BigOperators

namespace Cert.KernelIdeal.Payloads

open Cert.KernelIdeal Cert.KernelIdeal.Gen Cert.GemmAct
open Idealize.ShloMosaic Idealize.ShloMosaic.ValueIdx

/-- The body's matrix product has plain dimension numbers. -/
theorem dot_plain : PlainDot.IsPlain (M := 512) (K := 1024) (N := 1024) dot_S512x1024_S1024x1024_S512x1024_1_0_0_1_n_n :=
  ⟨rfl, rfl, rfl, rfl, rfl, rfl⟩

/-- The reset block is zero everywhere. -/
theorem reset_apply (y : S512x1024.Idx) : k0_pay1 (F := Ideal) y = 0 := by
  unfold k0_pay1
  simp only [shapeCast_self]
  exact Ideal.ofBits_zero_f32

/-- One accumulation step at (p, q): the carried entry plus the block's partial product. -/
theorem step_apply (xb : S512x1024.Idx → EReal) (wb : S1024x1024.Idx → EReal) (acc : S512x1024.Idx → EReal)
    (p : Fin 512) (q : Fin 1024) :
    k0_pay2 (F := Ideal) xb wb acc (ix2 p q) = acc (ix2 p q) + ∑ κ : Fin 1024, xb (ix2 p κ) * wb (ix2 κ q) := by
  unfold k0_pay2
  simp only [shapeCast_self]
  rw [addf_apply]
  congr 1
  exact PlainDot.matmul_zero_plain (M := 512) (K := 1024) (N := 1024) _ dot_plain none
    (truncf .bf16 xb bitsLt_bf16_f32) (truncf .bf16 wb bitsLt_bf16_f32) p q

/-- The epilogue at (p, q): the scalar chain of the accumulated entry plus the bias row's entry q. -/
theorem epilogue_apply (acc : S512x1024.Idx → EReal) (brow : S1x1024.Idx → EReal) (p : Fin 512) (q : Fin 1024) :
    k0_pay3 (F := Ideal) acc brow (ix2 p q) = act (acc (ix2 p q)) + brow (ix2 (0 : Fin 1) q) := by
  unfold k0_pay3
  simp only [shapeCast_self]
  rw [addf_apply, broadcastTo_apply brow broadcasts_S1x1024_S512x1024 (ix2 p q) (ix2 (0 : Fin 1) q)
    (fun a => by match a with | ⟨0, _⟩ => rfl | ⟨1, _⟩ => rfl)]
  rfl

end Cert.KernelIdeal.Payloads

end
-- ==== Proof.Blocks.lean ====
/-
  The pipeline's input blocks as pieces of the argument arrays.

  The grid has 16 × 4 × 4 points; point t has row block t / 16, column block (t / 4) % 4 and K-step t % 4. At point t
  the x-window holds rows 512·(t/16) … +511 and contracted indices 1024·(t%4) … +1023 of x; the w-window holds
  contracted indices 1024·(t%4) … +1023 and columns 1024·((t/4)%4) … +1023 of w; the bias window holds the same
  columns of the bias, seen as a row (the program reshapes the bias vector to [1, 4096] before the call).
-/
import proofs.«155839_j3556232922082_1_alg».proof.Proof.Gen.KernelIdeal.Frame
import Idealize.ShloMosaic.Lib.Pipeline.Value
import Idealize.ShloMosaic.Lib.ValueIdx
import Idealize.ShloMosaic.Lib.StableHlo.Run

set_option maxRecDepth 16384

noncomputable section

namespace Cert.KernelIdeal.Blocks

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ)

/-- The three argument arrays as launched, and the three input blocks at a point, at their literal types. -/
abbrev xarr (c : Dev nD) : S8192x4096.Idx → EReal := m ((c : Thread nD τ).loc main_arg0)
abbrev warr (c : Dev nD) : S4096x4096.Idx → EReal := m ((c : Thread nD τ).loc main_arg1)
abbrev barr (c : Dev nD) : S4096.Idx → EReal := m ((c : Thread nD τ).loc main_arg2)
abbrev xblk (c : Dev nD) (t : Fin cfg0.N) : S512x1024.Idx → EReal := iblk m c 0 t
abbrev wblk (c : Dev nD) (t : Fin cfg0.N) : S1024x1024.Idx → EReal := iblk m c 1 t
abbrev bblk (c : Dev nD) (t : Fin cfg0.N) : S1x1024.Idx → EReal := iblk m c 2 t

/-- The four index maps at every grid point: row block, column block and K-step of the point. -/
theorem idx_facts : ∀ t : Fin cfg0.N,
    win0_0.index t (0 : Fin 2) = t.val / 16 ∧ win0_0.index t (1 : Fin 2) = t.val % 4
    ∧ win0_1.index t (0 : Fin 2) = t.val % 4 ∧ win0_1.index t (1 : Fin 2) = t.val / 4 % 4
    ∧ win0_2.index t (0 : Fin 2) = 0 ∧ win0_2.index t (1 : Fin 2) = t.val / 4 % 4
    ∧ win0_3.index t (0 : Fin 2) = t.val / 16 ∧ win0_3.index t (1 : Fin 2) = t.val / 4 % 4 :=
  (by decide +kernel : ∀ t : Fin grid0.N, _)

/-- The x-block at (p, κ) is x at row 512·(t/16) + p, contracted index 1024·(t%4) + κ. -/
theorem xblk_apply (c : Dev nD) (t : Fin cfg0.N) (p : Fin 512) (κ : Fin 1024) (R : Fin 8192) (K : Fin 4096)
    (hR : R.val = 512 * (t.val / 16) + p.val) (hK : K.val = 1024 * (t.val % 4) + κ.val) :
    xblk m c t (ix2 p κ) = xarr m c (ix2 R K) := by
  obtain ⟨e0, e1, -⟩ := idx_facts t
  show (((cfg0.win 0).blk t).view.read (Elt Ideal) (V m c (Pipeline.arrRef spec0 0))) (ix2 p κ) = _
  rw [View.read_apply]
  show V m c main_arg0 _ = _
  rw [V_main_arg0]
  refine congrArg (m ((c : Thread nD τ).loc main_arg0)) (funext fun a => Fin.ext ?_)
  match a with
  | ⟨0, _⟩ => show win0_0.index t (0 : Fin 2) * 512 + 1 * p.val = R.val; rw [e0, hR]; omega
  | ⟨1, _⟩ => show win0_0.index t (1 : Fin 2) * 1024 + 1 * κ.val = K.val; rw [e1, hK]; omega

/-- The w-block at (κ, q) is w at contracted index 1024·(t%4) + κ, column 1024·((t/4)%4) + q. -/
theorem wblk_apply (c : Dev nD) (t : Fin cfg0.N) (κ : Fin 1024) (q : Fin 1024) (K : Fin 4096) (Q : Fin 4096)
    (hK : K.val = 1024 * (t.val % 4) + κ.val) (hQ : Q.val = 1024 * (t.val / 4 % 4) + q.val) :
    wblk m c t (ix2 κ q) = warr m c (ix2 K Q) := by
  obtain ⟨-, -, e2, e3, -⟩ := idx_facts t
  show (((cfg0.win 1).blk t).view.read (Elt Ideal) (V m c (Pipeline.arrRef spec0 1))) (ix2 κ q) = _
  rw [View.read_apply]
  show V m c main_arg1 _ = _
  rw [V_main_arg1]
  refine congrArg (m ((c : Thread nD τ).loc main_arg1)) (funext fun a => Fin.ext ?_)
  match a with
  | ⟨0, _⟩ => show win0_1.index t (0 : Fin 2) * 1024 + 1 * κ.val = K.val; rw [e2, hK]; omega
  | ⟨1, _⟩ => show win0_1.index t (1 : Fin 2) * 1024 + 1 * q.val = Q.val; rw [e3, hQ]; omega

/-- The bias window's array is the bias vector reshaped to one row. -/
theorem bias_row (c : Dev nD) :
    (V m c main_v0 : S1x4096.Idx → EReal) = shapeCast S1x4096 (barr m c) shapeCasts_S4096_S1x4096 := by
  dsimp only [V, hostOps0]
  after_results
  rfl

/-- The bias block at (0, q) is the bias at column 1024·((t/4)%4) + q. -/
theorem bblk_apply (c : Dev nD) (t : Fin cfg0.N) (q : Fin 1024) (Q : Fin 4096)
    (hQ : Q.val = 1024 * (t.val / 4 % 4) + q.val) :
    bblk m c t (ix2 (0 : Fin 1) q) = barr m c (ix1 Q) := by
  obtain ⟨-, -, -, -, e4, e5, -⟩ := idx_facts t
  show (((cfg0.win 2).blk t).view.read (Elt Ideal) (V m c (Pipeline.arrRef spec0 2))) (ix2 (0 : Fin 1) q) = _
  rw [View.read_apply]
  show V m c main_v0 _ = _
  rw [bias_row]
  refine shapeCast_apply _ _ _ (ix1 Q) ?_
  rw [Shape.rowMajor_val_one, Shape.rowMajor_val_two]
  show Q.val = (win0_2.index t (0 : Fin 2) * 1 + 1 * (0 : Fin 1).val) * 4096 + (win0_2.index t (1 : Fin 2) * 1024 + 1 * q.val)
  rw [e4, e5, hQ]
  simp only [Fin.val_zero]
  omega

end Cert.KernelIdeal.Blocks

end
-- ==== Proof.Accum.lean ====
/-
  What the accumulator holds after every grid point, and what a tile's last point stores.

  Fix a tile: a row block and a column block. Its four K-steps are four consecutive grid points t with t % 4 = 0, 1, 2, 3.
  By induction along the points, after the point with K-step s the accumulator's entry (p, q) is the sum of the first
  1024·(s + 1) terms x (R, κ) · w (κ, Q) of the product at the entry's place (R, Q) in the whole arrays: the first step
  starts from the zero block, each later step adds its block's 1024 terms to what the step before left, and the step
  before belongs to the same tile. At the last step all 4096 terms are in, and the output block's entry is the scalar
  chain of that sum plus the bias of column Q: the specification at (R, Q).
-/
import proofs.«155839_j3556232922082_1_alg».proof.Proof.Pieces
import proofs.«155839_j3556232922082_1_alg».proof.Proof.Payloads
import proofs.«155839_j3556232922082_1_alg».proof.Proof.Blocks
import proofs.«155839_j3556232922082_1_alg».proof.Proof.Spec

set_option maxRecDepth 16384

noncomputable section

open scoped BigOperators

namespace Cert.KernelIdeal.Accum

open Cert.KernelIdeal Cert.KernelIdeal.Gen Cert.KernelIdeal.Pieces Cert.KernelIdeal.Payloads Cert.KernelIdeal.Blocks Cert.GemmAct
open Idealize.ShloMosaic Idealize.ShloMosaic.TcCoe Idealize.ShloMosaic.ValueIdx Idealize.SL.Sem

variable (m : (ℓ : Loc nD τ sig) → Buf (Elt Ideal) ℓ)

/-- A block's 1024 products at a point are the terms 1024·(t%4) … +1023 of the product at (R, Q). -/
theorem block_terms (c : Dev nD) (t : Fin cfg0.N) (p : Fin 512) (q : Fin 1024) (R : Fin 8192) (Q : Fin 4096)
    (hR : R.val = 512 * (t.val / 16) + p.val) (hQ : Q.val = 1024 * (t.val / 4 % 4) + q.val)
    (hb : 1024 * (t.val % 4) + 1024 ≤ 4096) :
    ∑ κ : Fin 1024, xblk m c t (ix2 p κ) * wblk m c t (ix2 κ q)
      = ∑ j : Fin 1024, xarr m c (ix2 R ⟨1024 * (t.val % 4) + j.val, by have := j.isLt; omega⟩)
          * warr m c (ix2 ⟨1024 * (t.val % 4) + j.val, by have := j.isLt; omega⟩ Q) := by
  refine Finset.sum_congr rfl fun κ _ => ?_
  rw [xblk_apply m c t p κ R ⟨1024 * (t.val % 4) + κ.val, by have := κ.isLt; omega⟩ hR rfl,
    wblk_apply m c t κ q ⟨1024 * (t.val % 4) + κ.val, by have := κ.isLt; omega⟩ Q rfl hQ]

/-- After a tile's first point the accumulator holds the first 1024 terms. -/
theorem acc_reset (c : Dev nD) (t : Fin cfg0.N) (h0 : t.val % 4 = 0) (p : Fin 512) (q : Fin 1024) (R : Fin 8192) (Q : Fin 4096)
    (hR : R.val = 512 * (t.val / 16) + p.val) (hQ : Q.val = 1024 * (t.val / 4 % 4) + q.val) :
    (outsAt0 m c t.val t.isLt).2 (ix2 p q) = psum (xarr m c) (warr m c) R Q (1024 * (t.val % 4) + 1024) := by
  have h1 : ¬t.val % 4 = 3 := by omega
  have hb : 1024 * (t.val % 4) + 1024 ≤ 4096 := by omega
  rw [outsAt0_A m c t h0 h1]
  dsimp only
  refine (congrFun (acc_first (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (xblk m c t) (wblk m c t) (bblk m c t)) (ix2 p q)).trans ?_
  rw [step_apply, reset_apply, block_terms m c t p q R Q hR hQ hb, psum_block _ _ R Q (1024 * (t.val % 4)) hb]
  congr 1
  rw [h0]
  exact (psum_zero _ _ R Q).symm

/-- After a later point of a tile the accumulator holds what the point before left plus the point's 1024 terms. -/
theorem acc_step (c : Dev nD) (k : ℕ) (hk : k + 1 < cfg0.N) (h0 : ¬(k + 1) % 4 = 0) (p : Fin 512) (q : Fin 1024) (R : Fin 8192) (Q : Fin 4096)
    (hR : R.val = 512 * ((k + 1) / 16) + p.val) (hQ : Q.val = 1024 * ((k + 1) / 4 % 4) + q.val)
    (hprev : (outsAt0 m c k (Nat.lt_of_succ_lt hk)).2 (ix2 p q) = psum (xarr m c) (warr m c) R Q (1024 * ((k + 1) % 4))) :
    (outsAt0 m c (k + 1) hk).2 (ix2 p q) = psum (xarr m c) (warr m c) R Q (1024 * ((k + 1) % 4) + 1024) := by
  have hb : 1024 * ((k + 1) % 4) + 1024 ≤ 4096 := by omega
  by_cases h1 : (k + 1) % 4 = 3
  · rw [outsAt0_C m c ⟨k + 1, hk⟩ h0 h1]
    dsimp only
    refine (congrFun (acc_last (F := Ideal) c (grid0.coords ⟨k + 1, hk⟩) (ms0_0 ⟨k + 1, hk⟩) (hs0_0 ⟨k + 1, hk⟩) (ms0_1 ⟨k + 1, hk⟩) (hs0_1 ⟨k + 1, hk⟩) (ms0_2 ⟨k + 1, hk⟩) (hs0_2 ⟨k + 1, hk⟩) (ms0_3 ⟨k + 1, hk⟩) (hs0_3 ⟨k + 1, hk⟩) scM0_0 (Memref.isWhole_whole _) (fun h => h0 ((hcond0_0 ⟨k + 1, hk⟩).mp h)) ((hcond0_1 ⟨k + 1, hk⟩).mpr h1) (xblk m c ⟨k + 1, hk⟩) (wblk m c ⟨k + 1, hk⟩) (bblk m c ⟨k + 1, hk⟩) (outsAt0 m c k (Nat.lt_of_succ_lt hk)).2) (ix2 p q)).trans ?_
    rw [step_apply, hprev, block_terms m c ⟨k + 1, hk⟩ p q R Q hR hQ hb, psum_block _ _ R Q (1024 * ((k + 1) % 4)) hb]
  · rw [outsAt0_B m c ⟨k + 1, hk⟩ h0 h1]
    dsimp only
    refine (congrFun (acc_middle (F := Ideal) c (grid0.coords ⟨k + 1, hk⟩) (ms0_0 ⟨k + 1, hk⟩) (hs0_0 ⟨k + 1, hk⟩) (ms0_1 ⟨k + 1, hk⟩) (hs0_1 ⟨k + 1, hk⟩) (ms0_2 ⟨k + 1, hk⟩) (hs0_2 ⟨k + 1, hk⟩) (ms0_3 ⟨k + 1, hk⟩) (hs0_3 ⟨k + 1, hk⟩) scM0_0 (Memref.isWhole_whole _) (fun h => h0 ((hcond0_0 ⟨k + 1, hk⟩).mp h)) (fun h => h1 ((hcond0_1 ⟨k + 1, hk⟩).mp h)) (xblk m c ⟨k + 1, hk⟩) (wblk m c ⟨k + 1, hk⟩) (bblk m c ⟨k + 1, hk⟩) (outsAt0 m c k (Nat.lt_of_succ_lt hk)).2) (ix2 p q)).trans ?_
    rw [step_apply, hprev, block_terms m c ⟨k + 1, hk⟩ p q R Q hR hQ hb, psum_block _ _ R Q (1024 * ((k + 1) % 4)) hb]

/-- THE INVARIANT: after the point with K-step s the accumulator holds the first 1024·(s + 1) terms. -/
theorem acc_inv (c : Dev nD) (n : ℕ) : ∀ (hn : n < cfg0.N) (p : Fin 512) (q : Fin 1024) (R : Fin 8192) (Q : Fin 4096),
    R.val = 512 * (n / 16) + p.val → Q.val = 1024 * (n / 4 % 4) + q.val →
    (outsAt0 m c n hn).2 (ix2 p q) = psum (xarr m c) (warr m c) R Q (1024 * (n % 4) + 1024) := by
  induction n with
  | zero =>
    intro hn p q R Q hR hQ
    exact acc_reset m c ⟨0, hn⟩ rfl p q R Q hR hQ
  | succ k ih =>
    intro hn p q R Q hR hQ
    by_cases h0 : (k + 1) % 4 = 0
    · exact acc_reset m c ⟨k + 1, hn⟩ h0 p q R Q hR hQ
    · refine acc_step m c k hn h0 p q R Q hR hQ ?_
      rw [ih (Nat.lt_of_succ_lt hn) p q R Q (by rw [hR]; omega) (by rw [hQ]; omega)]
      congr 1
      omega

/-- At a tile's last point the output block's entry (p, q) is the specification at the entry's place (R, Q). -/
theorem out_at (c : Dev nD) (t : Fin cfg0.N) (h1 : t.val % 4 = 3) (p : Fin 512) (q : Fin 1024) (R : Fin 8192) (Q : Fin 4096)
    (hR : R.val = 512 * (t.val / 16) + p.val) (hQ : Q.val = 1024 * (t.val / 4 % 4) + q.val) :
    (outsAt0 m c t.val t.isLt).1 (ix2 p q) = G (xarr m c) (warr m c) (barr m c) (ix2 R Q) := by
  have h0 : ¬t.val % 4 = 0 := by omega
  have hacc := acc_inv m c t.val t.isLt p q R Q hR hQ
  rw [outsAt0_C m c t h0 h1] at hacc ⊢
  dsimp only at hacc ⊢
  rw [acc_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (xblk m c t) (wblk m c t) (bblk m c t) (outsAt0 m c (t.val - 1) (Nat.lt_of_le_of_lt (Nat.sub_le _ _) t.isLt)).2] at hacc
  refine (congrFun (out_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (xblk m c t) (wblk m c t) (bblk m c t) (outsAt0 m c (t.val - 1) (Nat.lt_of_le_of_lt (Nat.sub_le _ _) t.isLt)).2) (ix2 p q)).trans ?_
  rw [epilogue_apply, hacc, h1, bblk_apply m c t q Q hQ, G_apply]

end Cert.KernelIdeal.Accum

end
-- ==== Proof.KernelValue.lean ====
/-
  The kernel's result array is the specification of its three arguments.

  Only a tile's last point writes its output block back, and what it writes is the specification read through the
  block's rectangle: entry (p, q) of the block of row block i and column block j sits at (512·i + p, 1024·j + q) of the
  array. The 16 × 4 blocks written back tile the [8192, 4096] array, so after the run the array holds the
  specification everywhere.
-/
import proofs.«155839_j3556232922082_1_alg».proof.Proof.Accum
import proofs.«155839_j3556232922082_1_alg».proof.Proof.Gen.KernelIdeal.Value
import Idealize.ShloMosaic.Lib.Pipeline.Value

set_option maxRecDepth 16384

noncomputable section

namespace Cert.KernelIdeal.Result

open Cert.KernelIdeal Cert.KernelIdeal.Gen Cert.KernelIdeal.Blocks Cert.KernelIdeal.Accum Cert.GemmAct
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- What the result array ends holding: the specification of the arguments as launched. -/
abbrev result (c : Dev nD) : Buf (Elt Ideal) ((c : Thread nD τ).loc main_v1) :=
  G (xarr m c) (warr m c) (barr m c)

/-- What a tile's last point writes back is the specification read through the point's block. -/
theorem flushed_eq (c : Dev nD) (t : Fin cfg0.N) (hf : (cfg0.win 3).flush t = true) :
    (dats m 0 c).flushed 3 t = ((cfg0.win 3).blk t).view.read (Elt Ideal) (result m c) := by
  have h1 : t.val % 4 = 3 := (flush0_3 t).mp hf
  have hN : t.val < 256 := lt_of_lt_of_eq t.isLt N_0
  obtain ⟨-, -, -, -, -, -, e6, e7⟩ := idx_facts t
  rw [Value.flushed3]
  funext j
  obtain ⟨p, q, rfl⟩ : ∃ (p : Fin 512) (q : Fin 1024), j = ix2 p q := ⟨j 0, j 1, eq_ix2 j⟩
  show (outsAt0 m c t.val t.isLt).1 (ix2 p q) = result m c (((cfg0.win 3).blk t).view.emb (ix2 p q))
  rw [out_at m c t h1 p q ⟨512 * (t.val / 16) + p.val, by have := p.isLt; omega⟩ ⟨1024 * (t.val / 4 % 4) + q.val, by have := q.isLt; omega⟩ rfl rfl]
  refine congrArg (G (xarr m c) (warr m c) (barr m c)) (funext fun a => Fin.ext ?_)
  match a with
  | ⟨0, _⟩ => show 512 * (t.val / 16) + p.val = win0_3.index t (0 : Fin 2) * 512 + 1 * p.val; rw [e6]; omega
  | ⟨1, _⟩ => show 1024 * (t.val / 4 % 4) + q.val = win0_3.index t (1 : Fin 2) * 1024 + 1 * q.val; rw [e7]; omega

/-- An index of the array is in a point's output block iff each coordinate is in the block's range on its axis. -/
theorem mem_blk (t : Fin cfg0.N) (i : S8192x4096.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v1).slice (win0_3.rect t)).set ↔ _
  rw [View.set_slice_whole, Rect.mem_set_unit]
  exact Iff.rfl

/-- Every index of the array is in the block some tile's last point writes back. -/
theorem cover (i : S8192x4096.Idx) : ∃ t : Fin cfg0.N, (cfg0.win 3).flush t = true ∧ i ∈ ((cfg0.win 3).blk t).view.set := by
  have hi0 : (i 0).val < 8192 := (i 0).isLt
  have hi1 : (i 1).val < 4096 := (i 1).isLt
  obtain ⟨t, ht⟩ : ∃ t : Fin cfg0.N, t.val = 16 * ((i 0).val / 512) + 4 * ((i 1).val / 1024) + 3 :=
    ⟨⟨16 * ((i 0).val / 512) + 4 * ((i 1).val / 1024) + 3, by rw [show cfg0.N = 256 from N_0]; omega⟩, rfl⟩
  obtain ⟨-, -, -, -, -, -, e6, e7⟩ := idx_facts t
  refine ⟨t, (flush0_3 t).mpr (by rw [ht]; omega), ?_⟩
  rw [mem_blk]
  intro a
  match a with
  | ⟨0, _⟩ =>
    show win0_3.index t (0 : Fin 2) * 512 ≤ (i 0).val ∧ (i 0).val < win0_3.index t (0 : Fin 2) * 512 + 512
    rw [e6, ht]; omega
  | ⟨1, _⟩ =>
    show win0_3.index t (1 : Fin 2) * 1024 ≤ (i 1).val ∧ (i 1).val < win0_3.index t (1 : Fin 2) * 1024 + 1024
    rw [e7, ht]; omega

/-- The result array after the run. -/
theorem final (c : Dev nD) : (dats m 0 c).arrAt 3 cfg0.N = result m c :=
  (dats m 0 c).arrAt_eq_of_cover 3 (result m c) (flushed_eq m c) cover

/-- The kernel's run: it terminates with the result array at the specification and the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Result

end
-- ==== Proof.RefRun.lean ====
/-
  The reference program's run, read back stage by stage.

  The reference is a straight line of 52 host operations: one matrix product, then a purely elementwise tail. The tail is
  two leaky-relu steps, two tanh-gelu steps and the addition of the bias row, every step a short stretch of operations
  that reads only the step before it. So the result is stated as the composition of five small functions, and the run's
  fold over the 52 operations is cut at the stretch boundaries: each stretch is read at an arbitrary valuation, where
  its operands are atoms, and the five readings are joined by the fold's behaviour on a concatenation.
-/
import proofs.«155839_j3556232922082_1_alg».proof.Proof.Gen.ReferenceIdeal
import Idealize.ShloMosaic.Lib.StableHlo.Run
import Idealize.ShloMosaic.Lib.Pipeline.Frame

noncomputable section

namespace Cert.ReferenceIdeal.StagedRun

open Cert.ReferenceIdeal Cert.ReferenceIdeal.Gen Idealize.ShloMosaic Idealize.ShloMosaic.TcCoe Idealize.SL.Sem Idealize.ShloMosaic.StableHlo

variable {F : FTy → Type} [FloatOps F]

/-! ## The stages -/

/-- A scalar constant spread over the whole [8192, 4096] array. -/
def splat (w : BitVec 32) : (⟨S8192x4096, .f32⟩ : BufTy).Contents (Elt F) :=
  broadcastInDim S8192x4096 ![] bcast_S_S8192x4096 (constant S_ .f32 w)

/-- One leaky-relu step: `a` where `a > 0`, else the slope constant times `a`. -/
def leakyV (a : (⟨S8192x4096, .f32⟩ : BufTy).Contents (Elt F)) : (⟨S8192x4096, .f32⟩ : BufTy).Contents (Elt F) :=
  select (cmpf .ogt a (splat (F := F) 0x00000000#32)) a (mulf (splat (F := F) 0x3C23D70A#32) a)

/-- One tanh-gelu step: `(½·v) · (1 + tanh (c · (v + ((a·v)·v)·v)))`, in the program's own association. -/
def geluV (v : (⟨S8192x4096, .f32⟩ : BufTy).Contents (Elt F)) : (⟨S8192x4096, .f32⟩ : BufTy).Contents (Elt F) :=
  mulf (mulf (splat (F := F) 0x3F000000#32) v)
    (addf (splat (F := F) 0x3F800000#32)
      (Host.tanh (mulf (splat (F := F) 0x3F4C422A#32)
        (addf v (mulf (mulf (mulf (splat (F := F) 0x3D372713#32) v) v) v)))))

/-- The bias vector as a row, spread down the rows of the [8192, 4096] array. -/
def biasV (b : (⟨S4096, .f32⟩ : BufTy).Contents (Elt F)) : (⟨S8192x4096, .f32⟩ : BufTy).Contents (Elt F) :=
  broadcastInDim S8192x4096 ![0, 1] bcast_S1x4096_S8192x4096_0_1 (broadcastInDim S1x4096 ![1] bcast_S4096_S1x4096_1 b)

/-- The reference's result as a function of its three arguments. -/
def refResult (x : (⟨S8192x4096, .f32⟩ : BufTy).Contents (Elt F)) (w : (⟨S4096x4096, .f32⟩ : BufTy).Contents (Elt F)) (b : (⟨S4096, .f32⟩ : BufTy).Contents (Elt F)) : (⟨S8192x4096, .f32⟩ : BufTy).Contents (Elt F) :=
  addf (geluV (geluV (leakyV (leakyV (Host.dotGeneral dot_S8192x4096_S4096x4096_S8192x4096_1_0_0_1_n_n none x w))))) (biasV b)

/-! ## The operations, whole and in stretches -/

/-- @main's 52 operations, in order (the two calls of the outlined select stand inline). -/
abbrev ops : List (HloOp τ sig (Elt F)) :=
  [ binary main_arg0 main_arg1 main_v0 ((fun l r => Host.dotGeneral dot_S8192x4096_S4096x4096_S8192x4096_1_0_0_1_n_n none l r) : (⟨S8192x4096, .f32⟩ : BufTy).Contents (Elt F) → (⟨S4096x4096, .f32⟩ : BufTy).Contents (Elt F) → (⟨S8192x4096, .f32⟩ : BufTy).Contents (Elt F)),
    nullary main_cst (constant S_ .f32 0x00000000#32),
    unary main_cst main_v1 (broadcastInDim S8192x4096 ![] bcast_S_S8192x4096 : (⟨S_, .f32⟩ : BufTy).Contents (Elt F) → (⟨S8192x4096, .f32⟩ : BufTy).Contents (Elt F)),
    binary main_v0 main_v1 main_v2 (cmpf .ogt : (⟨S8192x4096, .f32⟩ : BufTy).Contents (Elt F) → (⟨S8192x4096, .f32⟩ : BufTy).Contents (Elt F) → (⟨S8192x4096, .i1⟩ : BufTy).Contents (Elt F)),
    nullary main_cst_0 (constant S_ .f32 0x3C23D70A#32),
    unary main_cst_0 main_v3 (broadcastInDim S8192x4096 ![] bcast_S_S8192x4096 : (⟨S_, .f32⟩ : BufTy).Contents (Elt F) → (⟨S8192x4096, .f32⟩ : BufTy).Contents (Elt F)),
    binary main_v3 main_v0 main_v4 (mulf : (⟨S8192x4096, .f32⟩ : BufTy).Contents (Elt F) → (⟨S8192x4096, .f32⟩ : BufTy).Contents (Elt F) → (⟨S8192x4096, .f32⟩ : BufTy).Contents (Elt F)),
    TRef.ternary (TRef.of (T := ⟨S8192x4096, .i1⟩) main_v2) (TRef.of (T := ⟨S8192x4096, .f32⟩) main_v0) (TRef.of (T := ⟨S8192x4096, .f32⟩) main_v4) (TRef.of (T := ⟨S8192x4096, .f32⟩) main_v5) select,
    nullary main_cst_1 (constant S_ .f32 0x00000000#32),
    unary main_cst_1 main_v6 (broadcastInDim S8192x4096 ![] bcast_S_S8192x4096 : (⟨S_, .f32⟩ : BufTy).Contents (Elt F) → (⟨S8192x4096, .f32⟩ : BufTy).Contents (Elt F)),
    binary main_v5 main_v6 main_v7 (cmpf .ogt : (⟨S8192x4096, .f32⟩ : BufTy).Contents (Elt F) → (⟨S8192x4096, .f32⟩ : BufTy).Contents (Elt F) → (⟨S8192x4096, .i1⟩ : BufTy).Contents (Elt F)),
    nullary main_cst_2 (constant S_ .f32 0x3C23D70A#32),
    unary main_cst_2 main_v8 (broadcastInDim S8192x4096 ![] bcast_S_S8192x4096 : (⟨S_, .f32⟩ : BufTy).Contents (Elt F) → (⟨S8192x4096, .f32⟩ : BufTy).Contents (Elt F)),
    binary main_v8 main_v5 main_v9 (mulf : (⟨S8192x4096, .f32⟩ : BufTy).Contents (Elt F) → (⟨S8192x4096, .f32⟩ : BufTy).Contents (Elt F) → (⟨S8192x4096, .f32⟩ : BufTy).Contents (Elt F)),
    TRef.ternary (TRef.of (T := ⟨S8192x4096, .i1⟩) main_v7) (TRef.of (T := ⟨S8192x4096, .f32⟩) main_v5) (TRef.of (T := ⟨S8192x4096, .f32⟩) main_v9) (TRef.of (T := ⟨S8192x4096, .f32⟩) main_v10) select,
    nullary main_cst_3 (constant S_ .f32 0x3F000000#32),
    unary main_cst_3 main_v11 (broadcastInDim S8192x4096 ![] bcast_S_S8192x4096 : (⟨S_, .f32⟩ : BufTy).Contents (Elt F) → (⟨S8192x4096, .f32⟩ : BufTy).Contents (Elt F)),
    binary main_v11 main_v10 main_v12 (mulf : (⟨S8192x4096, .f32⟩ : BufTy).Contents (Elt F) → (⟨S8192x4096, .f32⟩ : BufTy).Contents (Elt F) → (⟨S8192x4096, .f32⟩ : BufTy).Contents (Elt F)),
    nullary main_cst_4 (constant S_ .f32 0x3D372713#32),
    unary main_cst_4 main_v13 (broadcastInDim S8192x4096 ![] bcast_S_S8192x4096 : (⟨S_, .f32⟩ : BufTy).Contents (Elt F) → (⟨S8192x4096, .f32⟩ : BufTy).Contents (Elt F)),
    binary main_v13 main_v10 main_v14 (mulf : (⟨S8192x4096, .f32⟩ : BufTy).Contents (Elt F) → (⟨S8192x4096, .f32⟩ : BufTy).Contents (Elt F) → (⟨S8192x4096, .f32⟩ : BufTy).Contents (Elt F)),
    binary main_v14 main_v10 main_v15 (mulf : (⟨S8192x4096, .f32⟩ : BufTy).Contents (Elt F) → (⟨S8192x4096, .f32⟩ : BufTy).Contents (Elt F) → (⟨S8192x4096, .f32⟩ : BufTy).Contents (Elt F)),
    binary main_v15 main_v10 main_v16 (mulf : (⟨S8192x4096, .f32⟩ : BufTy).Contents (Elt F) → (⟨S8192x4096, .f32⟩ : BufTy).Contents (Elt F) → (⟨S8192x4096, .f32⟩ : BufTy).Contents (Elt F)),
    binary main_v10 main_v16 main_v17 (addf : (⟨S8192x4096, .f32⟩ : BufTy).Contents (Elt F) → (⟨S8192x4096, .f32⟩ : BufTy).Contents (Elt F) → (⟨S8192x4096, .f32⟩ : BufTy).Contents (Elt F)),
    nullary main_cst_5 (constant S_ .f32 0x3F4C422A#32),
    unary main_cst_5 main_v18 (broadcastInDim S8192x4096 ![] bcast_S_S8192x4096 : (⟨S_, .f32⟩ : BufTy).Contents (Elt F) → (⟨S8192x4096, .f32⟩ : BufTy).Contents (Elt F)),
    binary main_v18 main_v17 main_v19 (mulf : (⟨S8192x4096, .f32⟩ : BufTy).Contents (Elt F) → (⟨S8192x4096, .f32⟩ : BufTy).Contents (Elt F) → (⟨S8192x4096, .f32⟩ : BufTy).Contents (Elt F)),
    unary main_v19 main_v20 (Host.tanh : (⟨S8192x4096, .f32⟩ : BufTy).Contents (Elt F) → (⟨S8192x4096, .f32⟩ : BufTy).Contents (Elt F)),
    nullary main_cst_6 (constant S_ .f32 0x3F800000#32),
    unary main_cst_6 main_v21 (broadcastInDim S8192x4096 ![] bcast_S_S8192x4096 : (⟨S_, .f32⟩ : BufTy).Contents (Elt F) → (⟨S8192x4096, .f32⟩ : BufTy).Contents (Elt F)),
    binary main_v21 main_v20 main_v22 (addf : (⟨S8192x4096, .f32⟩ : BufTy).Contents (Elt F) → (⟨S8192x4096, .f32⟩ : BufTy).Contents (Elt F) → (⟨S8192x4096, .f32⟩ : BufTy).Contents (Elt F)),
    binary main_v12 main_v22 main_v23 (mulf : (⟨S8192x4096, .f32⟩ : BufTy).Contents (Elt F) → (⟨S8192x4096, .f32⟩ : BufTy).Contents (Elt F) → (⟨S8192x4096, .f32⟩ : BufTy).Contents (Elt F)),
    nullary main_cst_7 (constant S_ .f32 0x3F000000#32),
    unary main_cst_7 main_v24 (broadcastInDim S8192x4096 ![] bcast_S_S8192x4096 : (⟨S_, .f32⟩ : BufTy).Contents (Elt F) → (⟨S8192x4096, .f32⟩ : BufTy).Contents (Elt F)),
    binary main_v24 main_v23 main_v25 (mulf : (⟨S8192x4096, .f32⟩ : BufTy).Contents (Elt F) → (⟨S8192x4096, .f32⟩ : BufTy).Contents (Elt F) → (⟨S8192x4096, .f32⟩ : BufTy).Contents (Elt F)),
    nullary main_cst_8 (constant S_ .f32 0x3D372713#32),
    unary main_cst_8 main_v26 (broadcastInDim S8192x4096 ![] bcast_S_S8192x4096 : (⟨S_, .f32⟩ : BufTy).Contents (Elt F) → (⟨S8192x4096, .f32⟩ : BufTy).Contents (Elt F)),
    binary main_v26 main_v23 main_v27 (mulf : (⟨S8192x4096, .f32⟩ : BufTy).Contents (Elt F) → (⟨S8192x4096, .f32⟩ : BufTy).Contents (Elt F) → (⟨S8192x4096, .f32⟩ : BufTy).Contents (Elt F)),
    binary main_v27 main_v23 main_v28 (mulf : (⟨S8192x4096, .f32⟩ : BufTy).Contents (Elt F) → (⟨S8192x4096, .f32⟩ : BufTy).Contents (Elt F) → (⟨S8192x4096, .f32⟩ : BufTy).Contents (Elt F)),
    binary main_v28 main_v23 main_v29 (mulf : (⟨S8192x4096, .f32⟩ : BufTy).Contents (Elt F) → (⟨S8192x4096, .f32⟩ : BufTy).Contents (Elt F) → (⟨S8192x4096, .f32⟩ : BufTy).Contents (Elt F)),
    binary main_v23 main_v29 main_v30 (addf : (⟨S8192x4096, .f32⟩ : BufTy).Contents (Elt F) → (⟨S8192x4096, .f32⟩ : BufTy).Contents (Elt F) → (⟨S8192x4096, .f32⟩ : BufTy).Contents (Elt F)),
    nullary main_cst_9 (constant S_ .f32 0x3F4C422A#32),
    unary main_cst_9 main_v31 (broadcastInDim S8192x4096 ![] bcast_S_S8192x4096 : (⟨S_, .f32⟩ : BufTy).Contents (Elt F) → (⟨S8192x4096, .f32⟩ : BufTy).Contents (Elt F)),
    binary main_v31 main_v30 main_v32 (mulf : (⟨S8192x4096, .f32⟩ : BufTy).Contents (Elt F) → (⟨S8192x4096, .f32⟩ : BufTy).Contents (Elt F) → (⟨S8192x4096, .f32⟩ : BufTy).Contents (Elt F)),
    unary main_v32 main_v33 (Host.tanh : (⟨S8192x4096, .f32⟩ : BufTy).Contents (Elt F) → (⟨S8192x4096, .f32⟩ : BufTy).Contents (Elt F)),
    nullary main_cst_10 (constant S_ .f32 0x3F800000#32),
    unary main_cst_10 main_v34 (broadcastInDim S8192x4096 ![] bcast_S_S8192x4096 : (⟨S_, .f32⟩ : BufTy).Contents (Elt F) → (⟨S8192x4096, .f32⟩ : BufTy).Contents (Elt F)),
    binary main_v34 main_v33 main_v35 (addf : (⟨S8192x4096, .f32⟩ : BufTy).Contents (Elt F) → (⟨S8192x4096, .f32⟩ : BufTy).Contents (Elt F) → (⟨S8192x4096, .f32⟩ : BufTy).Contents (Elt F)),
    binary main_v25 main_v35 main_v36 (mulf : (⟨S8192x4096, .f32⟩ : BufTy).Contents (Elt F) → (⟨S8192x4096, .f32⟩ : BufTy).Contents (Elt F) → (⟨S8192x4096, .f32⟩ : BufTy).Contents (Elt F)),
    unary main_arg2 main_v37 (broadcastInDim S1x4096 ![1] bcast_S4096_S1x4096_1 : (⟨S4096, .f32⟩ : BufTy).Contents (Elt F) → (⟨S1x4096, .f32⟩ : BufTy).Contents (Elt F)),
    unary main_v37 main_v38 (broadcastInDim S8192x4096 ![0, 1] bcast_S1x4096_S8192x4096_0_1 : (⟨S1x4096, .f32⟩ : BufTy).Contents (Elt F) → (⟨S8192x4096, .f32⟩ : BufTy).Contents (Elt F)),
    binary main_v36 main_v38 main_v39 (addf : (⟨S8192x4096, .f32⟩ : BufTy).Contents (Elt F) → (⟨S8192x4096, .f32⟩ : BufTy).Contents (Elt F) → (⟨S8192x4096, .f32⟩ : BufTy).Contents (Elt F)) ]

/-- The matrix product and the first leaky-relu step. -/
abbrev opsLeaky1 : List (HloOp τ sig (Elt F)) :=
  [ binary main_arg0 main_arg1 main_v0 ((fun l r => Host.dotGeneral dot_S8192x4096_S4096x4096_S8192x4096_1_0_0_1_n_n none l r) : (⟨S8192x4096, .f32⟩ : BufTy).Contents (Elt F) → (⟨S4096x4096, .f32⟩ : BufTy).Contents (Elt F) → (⟨S8192x4096, .f32⟩ : BufTy).Contents (Elt F)),
    nullary main_cst (constant S_ .f32 0x00000000#32),
    unary main_cst main_v1 (broadcastInDim S8192x4096 ![] bcast_S_S8192x4096 : (⟨S_, .f32⟩ : BufTy).Contents (Elt F) → (⟨S8192x4096, .f32⟩ : BufTy).Contents (Elt F)),
    binary main_v0 main_v1 main_v2 (cmpf .ogt : (⟨S8192x4096, .f32⟩ : BufTy).Contents (Elt F) → (⟨S8192x4096, .f32⟩ : BufTy).Contents (Elt F) → (⟨S8192x4096, .i1⟩ : BufTy).Contents (Elt F)),
    nullary main_cst_0 (constant S_ .f32 0x3C23D70A#32),
    unary main_cst_0 main_v3 (broadcastInDim S8192x4096 ![] bcast_S_S8192x4096 : (⟨S_, .f32⟩ : BufTy).Contents (Elt F) → (⟨S8192x4096, .f32⟩ : BufTy).Contents (Elt F)),
    binary main_v3 main_v0 main_v4 (mulf : (⟨S8192x4096, .f32⟩ : BufTy).Contents (Elt F) → (⟨S8192x4096, .f32⟩ : BufTy).Contents (Elt F) → (⟨S8192x4096, .f32⟩ : BufTy).Contents (Elt F)),
    TRef.ternary (TRef.of (T := ⟨S8192x4096, .i1⟩) main_v2) (TRef.of (T := ⟨S8192x4096, .f32⟩) main_v0) (TRef.of (T := ⟨S8192x4096, .f32⟩) main_v4) (TRef.of (T := ⟨S8192x4096, .f32⟩) main_v5) select ]

/-- The second leaky-relu step. -/
abbrev opsLeaky2 : List (HloOp τ sig (Elt F)) :=
  [ nullary main_cst_1 (constant S_ .f32 0x00000000#32),
    unary main_cst_1 main_v6 (broadcastInDim S8192x4096 ![] bcast_S_S8192x4096 : (⟨S_, .f32⟩ : BufTy).Contents (Elt F) → (⟨S8192x4096, .f32⟩ : BufTy).Contents (Elt F)),
    binary main_v5 main_v6 main_v7 (cmpf .ogt : (⟨S8192x4096, .f32⟩ : BufTy).Contents (Elt F) → (⟨S8192x4096, .f32⟩ : BufTy).Contents (Elt F) → (⟨S8192x4096, .i1⟩ : BufTy).Contents (Elt F)),
    nullary main_cst_2 (constant S_ .f32 0x3C23D70A#32),
    unary main_cst_2 main_v8 (broadcastInDim S8192x4096 ![] bcast_S_S8192x4096 : (⟨S_, .f32⟩ : BufTy).Contents (Elt F) → (⟨S8192x4096, .f32⟩ : BufTy).Contents (Elt F)),
    binary main_v8 main_v5 main_v9 (mulf : (⟨S8192x4096, .f32⟩ : BufTy).Contents (Elt F) → (⟨S8192x4096, .f32⟩ : BufTy).Contents (Elt F) → (⟨S8192x4096, .f32⟩ : BufTy).Contents (Elt F)),
    TRef.ternary (TRef.of (T := ⟨S8192x4096, .i1⟩) main_v7) (TRef.of (T := ⟨S8192x4096, .f32⟩) main_v5) (TRef.of (T := ⟨S8192x4096, .f32⟩) main_v9) (TRef.of (T := ⟨S8192x4096, .f32⟩) main_v10) select ]

/-- The first gelu step. -/
abbrev opsGelu1 : List (HloOp τ sig (Elt F)) :=
  [ nullary main_cst_3 (constant S_ .f32 0x3F000000#32),
    unary main_cst_3 main_v11 (broadcastInDim S8192x4096 ![] bcast_S_S8192x4096 : (⟨S_, .f32⟩ : BufTy).Contents (Elt F) → (⟨S8192x4096, .f32⟩ : BufTy).Contents (Elt F)),
    binary main_v11 main_v10 main_v12 (mulf : (⟨S8192x4096, .f32⟩ : BufTy).Contents (Elt F) → (⟨S8192x4096, .f32⟩ : BufTy).Contents (Elt F) → (⟨S8192x4096, .f32⟩ : BufTy).Contents (Elt F)),
    nullary main_cst_4 (constant S_ .f32 0x3D372713#32),
    unary main_cst_4 main_v13 (broadcastInDim S8192x4096 ![] bcast_S_S8192x4096 : (⟨S_, .f32⟩ : BufTy).Contents (Elt F) → (⟨S8192x4096, .f32⟩ : BufTy).Contents (Elt F)),
    binary main_v13 main_v10 main_v14 (mulf : (⟨S8192x4096, .f32⟩ : BufTy).Contents (Elt F) → (⟨S8192x4096, .f32⟩ : BufTy).Contents (Elt F) → (⟨S8192x4096, .f32⟩ : BufTy).Contents (Elt F)),
    binary main_v14 main_v10 main_v15 (mulf : (⟨S8192x4096, .f32⟩ : BufTy).Contents (Elt F) → (⟨S8192x4096, .f32⟩ : BufTy).Contents (Elt F) → (⟨S8192x4096, .f32⟩ : BufTy).Contents (Elt F)),
    binary main_v15 main_v10 main_v16 (mulf : (⟨S8192x4096, .f32⟩ : BufTy).Contents (Elt F) → (⟨S8192x4096, .f32⟩ : BufTy).Contents (Elt F) → (⟨S8192x4096, .f32⟩ : BufTy).Contents (Elt F)),
    binary main_v10 main_v16 main_v17 (addf : (⟨S8192x4096, .f32⟩ : BufTy).Contents (Elt F) → (⟨S8192x4096, .f32⟩ : BufTy).Contents (Elt F) → (⟨S8192x4096, .f32⟩ : BufTy).Contents (Elt F)),
    nullary main_cst_5 (constant S_ .f32 0x3F4C422A#32),
    unary main_cst_5 main_v18 (broadcastInDim S8192x4096 ![] bcast_S_S8192x4096 : (⟨S_, .f32⟩ : BufTy).Contents (Elt F) → (⟨S8192x4096, .f32⟩ : BufTy).Contents (Elt F)),
    binary main_v18 main_v17 main_v19 (mulf : (⟨S8192x4096, .f32⟩ : BufTy).Contents (Elt F) → (⟨S8192x4096, .f32⟩ : BufTy).Contents (Elt F) → (⟨S8192x4096, .f32⟩ : BufTy).Contents (Elt F)),
    unary main_v19 main_v20 (Host.tanh : (⟨S8192x4096, .f32⟩ : BufTy).Contents (Elt F) → (⟨S8192x4096, .f32⟩ : BufTy).Contents (Elt F)),
    nullary main_cst_6 (constant S_ .f32 0x3F800000#32),
    unary main_cst_6 main_v21 (broadcastInDim S8192x4096 ![] bcast_S_S8192x4096 : (⟨S_, .f32⟩ : BufTy).Contents (Elt F) → (⟨S8192x4096, .f32⟩ : BufTy).Contents (Elt F)),
    binary main_v21 main_v20 main_v22 (addf : (⟨S8192x4096, .f32⟩ : BufTy).Contents (Elt F) → (⟨S8192x4096, .f32⟩ : BufTy).Contents (Elt F) → (⟨S8192x4096, .f32⟩ : BufTy).Contents (Elt F)),
    binary main_v12 main_v22 main_v23 (mulf : (⟨S8192x4096, .f32⟩ : BufTy).Contents (Elt F) → (⟨S8192x4096, .f32⟩ : BufTy).Contents (Elt F) → (⟨S8192x4096, .f32⟩ : BufTy).Contents (Elt F)) ]

/-- The second gelu step. -/
abbrev opsGelu2 : List (HloOp τ sig (Elt F)) :=
  [ nullary main_cst_7 (constant S_ .f32 0x3F000000#32),
    unary main_cst_7 main_v24 (broadcastInDim S8192x4096 ![] bcast_S_S8192x4096 : (⟨S_, .f32⟩ : BufTy).Contents (Elt F) → (⟨S8192x4096, .f32⟩ : BufTy).Contents (Elt F)),
    binary main_v24 main_v23 main_v25 (mulf : (⟨S8192x4096, .f32⟩ : BufTy).Contents (Elt F) → (⟨S8192x4096, .f32⟩ : BufTy).Contents (Elt F) → (⟨S8192x4096, .f32⟩ : BufTy).Contents (Elt F)),
    nullary main_cst_8 (constant S_ .f32 0x3D372713#32),
    unary main_cst_8 main_v26 (broadcastInDim S8192x4096 ![] bcast_S_S8192x4096 : (⟨S_, .f32⟩ : BufTy).Contents (Elt F) → (⟨S8192x4096, .f32⟩ : BufTy).Contents (Elt F)),
    binary main_v26 main_v23 main_v27 (mulf : (⟨S8192x4096, .f32⟩ : BufTy).Contents (Elt F) → (⟨S8192x4096, .f32⟩ : BufTy).Contents (Elt F) → (⟨S8192x4096, .f32⟩ : BufTy).Contents (Elt F)),
    binary main_v27 main_v23 main_v28 (mulf : (⟨S8192x4096, .f32⟩ : BufTy).Contents (Elt F) → (⟨S8192x4096, .f32⟩ : BufTy).Contents (Elt F) → (⟨S8192x4096, .f32⟩ : BufTy).Contents (Elt F)),
    binary main_v28 main_v23 main_v29 (mulf : (⟨S8192x4096, .f32⟩ : BufTy).Contents (Elt F) → (⟨S8192x4096, .f32⟩ : BufTy).Contents (Elt F) → (⟨S8192x4096, .f32⟩ : BufTy).Contents (Elt F)),
    binary main_v23 main_v29 main_v30 (addf : (⟨S8192x4096, .f32⟩ : BufTy).Contents (Elt F) → (⟨S8192x4096, .f32⟩ : BufTy).Contents (Elt F) → (⟨S8192x4096, .f32⟩ : BufTy).Contents (Elt F)),
    nullary main_cst_9 (constant S_ .f32 0x3F4C422A#32),
    unary main_cst_9 main_v31 (broadcastInDim S8192x4096 ![] bcast_S_S8192x4096 : (⟨S_, .f32⟩ : BufTy).Contents (Elt F) → (⟨S8192x4096, .f32⟩ : BufTy).Contents (Elt F)),
    binary main_v31 main_v30 main_v32 (mulf : (⟨S8192x4096, .f32⟩ : BufTy).Contents (Elt F) → (⟨S8192x4096, .f32⟩ : BufTy).Contents (Elt F) → (⟨S8192x4096, .f32⟩ : BufTy).Contents (Elt F)),
    unary main_v32 main_v33 (Host.tanh : (⟨S8192x4096, .f32⟩ : BufTy).Contents (Elt F) → (⟨S8192x4096, .f32⟩ : BufTy).Contents (Elt F)),
    nullary main_cst_10 (constant S_ .f32 0x3F800000#32),
    unary main_cst_10 main_v34 (broadcastInDim S8192x4096 ![] bcast_S_S8192x4096 : (⟨S_, .f32⟩ : BufTy).Contents (Elt F) → (⟨S8192x4096, .f32⟩ : BufTy).Contents (Elt F)),
    binary main_v34 main_v33 main_v35 (addf : (⟨S8192x4096, .f32⟩ : BufTy).Contents (Elt F) → (⟨S8192x4096, .f32⟩ : BufTy).Contents (Elt F) → (⟨S8192x4096, .f32⟩ : BufTy).Contents (Elt F)),
    binary main_v25 main_v35 main_v36 (mulf : (⟨S8192x4096, .f32⟩ : BufTy).Contents (Elt F) → (⟨S8192x4096, .f32⟩ : BufTy).Contents (Elt F) → (⟨S8192x4096, .f32⟩ : BufTy).Contents (Elt F)) ]

/-- The bias row spread and added. -/
abbrev opsBias : List (HloOp τ sig (Elt F)) :=
  [ unary main_arg2 main_v37 (broadcastInDim S1x4096 ![1] bcast_S4096_S1x4096_1 : (⟨S4096, .f32⟩ : BufTy).Contents (Elt F) → (⟨S1x4096, .f32⟩ : BufTy).Contents (Elt F)),
    unary main_v37 main_v38 (broadcastInDim S8192x4096 ![0, 1] bcast_S1x4096_S8192x4096_0_1 : (⟨S1x4096, .f32⟩ : BufTy).Contents (Elt F) → (⟨S8192x4096, .f32⟩ : BufTy).Contents (Elt F)),
    binary main_v36 main_v38 main_v39 (addf : (⟨S8192x4096, .f32⟩ : BufTy).Contents (Elt F) → (⟨S8192x4096, .f32⟩ : BufTy).Contents (Elt F) → (⟨S8192x4096, .f32⟩ : BufTy).Contents (Elt F)) ]

theorem ops_split : (ops : List (HloOp τ sig (Elt F))) = opsLeaky1 ++ (opsLeaky2 ++ (opsGelu1 ++ (opsGelu2 ++ opsBias))) := rfl

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., unary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., unary_bufs_sub .., nullary_bufs_sub .., unary_bufs_sub .., binary_bufs_sub .., binary_bufs_sub .., unary_bufs_sub .., unary_bufs_sub .., binary_bufs_sub ..⟩

/-! ## Each stretch at an arbitrary valuation -/

variable (W : Valuation τ sig (Elt F))

theorem leaky1_result : after opsLeaky1 W (Proc.devRef .tc main_v5)
    = leakyV (Host.dotGeneral dot_S8192x4096_S4096x4096_S8192x4096_1_0_0_1_n_n none (W (Proc.devRef .tc main_arg0)) (W (Proc.devRef .tc main_arg1))) := by
  after_results_simp <;> (try simp only [TRef.ofBuf, TRef.toBuf, cast_eq]) <;> rfl

theorem leaky2_result : after opsLeaky2 W (Proc.devRef .tc main_v10) = leakyV (W (Proc.devRef .tc main_v5)) := by
  after_results_simp <;> (try simp only [TRef.ofBuf, TRef.toBuf, cast_eq]) <;> rfl

theorem gelu1_result : after opsGelu1 W (Proc.devRef .tc main_v23) = geluV (W (Proc.devRef .tc main_v10)) := by
  after_results_simp <;> rfl

theorem gelu2_result : after opsGelu2 W (Proc.devRef .tc main_v36) = geluV (W (Proc.devRef .tc main_v23)) := by
  after_results_simp <;> rfl

theorem bias_result : after opsBias W (Proc.devRef .tc main_v39) = addf (W (Proc.devRef .tc main_v36)) (biasV (W (Proc.devRef .tc main_arg2))) := by
  after_results_simp <;> rfl

/-- No stretch before the last writes the bias argument. -/
theorem leaky1_keeps : after opsLeaky1 W (Proc.devRef .tc main_arg2) = W (Proc.devRef .tc main_arg2) := by
  after_results_simp
theorem leaky2_keeps : after opsLeaky2 W (Proc.devRef .tc main_arg2) = W (Proc.devRef .tc main_arg2) := by
  after_results_simp
theorem gelu1_keeps : after opsGelu1 W (Proc.devRef .tc main_arg2) = W (Proc.devRef .tc main_arg2) := by
  after_results_simp
theorem gelu2_keeps : after opsGelu2 W (Proc.devRef .tc main_arg2) = W (Proc.devRef .tc main_arg2) := by
  after_results_simp

/-! ## The whole line -/

/-- After all 52 operations the result buffer holds `refResult` of the three arguments as the valuation had them. -/
theorem result_eq : after ops W (Proc.devRef .tc main_v39)
    = refResult (W (Proc.devRef .tc main_arg0)) (W (Proc.devRef .tc main_arg1)) (W (Proc.devRef .tc main_arg2)) := by
  rw [ops_split, StableHlo.after_append, StableHlo.after_append, StableHlo.after_append, StableHlo.after_append]
  rw [bias_result, gelu2_result, gelu1_result, leaky2_result, leaky1_result]
  rw [gelu2_keeps, gelu1_keeps, leaky2_keeps, leaky1_keeps]
  rfl

set_option maxHeartbeats 2000000 in
/-- On every device, from any memory with zero counters: every weakly fair execution of the reference terminates with
    its result at `refResult` of the launch contents of the three arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v39)
        = refResult (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v39).trans (result_eq (launchContents m c)),
      (h c main_arg0).trans (by after_results_simp <;> rfl),
      (h c main_arg1).trans (by after_results_simp <;> rfl),
      (h c main_arg2).trans (by after_results_simp <;> rfl)⟩)
    (run_seq scopedRefs_eq scopedSems_eq defs main (fun _ => ops) main_eq (fun _ => ops_sub) m ρ)

end Cert.ReferenceIdeal.StagedRun

end
-- ==== Proof.RefValue.lean ====
/-
  The reference's result, read at an index, is the specification.

  Every stage after the matrix product acts entry by entry, so the staged result at (p, q) is the scalar chain applied
  to the product's entry at (p, q), plus the bias row's entry q; and the host's matrix product at (p, q) is the sum over
  the contracted index of x (p, κ) · w (κ, q).
-/
import proofs.«155839_j3556232922082_1_alg».proof.Proof.RefRun
import proofs.«155839_j3556232922082_1_alg».proof.Proof.Spec
import proofs.«155839_j3556232922082_1_alg».proof.Proof.LibPlainDot
import Idealize.ShloMosaic.Lib.Pipeline.Value

noncomputable section

open scoped BigOperators

namespace Cert.ReferenceIdeal.RefIsSpec

open Cert.ReferenceIdeal Cert.ReferenceIdeal.Gen Cert.ReferenceIdeal.StagedRun Cert.GemmAct
open Idealize.ShloMosaic Idealize.ShloMosaic.ValueIdx

/-- A spread constant reads the extended real its word denotes, everywhere. -/
theorem splat_apply (wd : BitVec 32) (i : S8192x4096.Idx) : splat (F := Ideal) wd i = Ideal.ofBits .f32 wd := by
  unfold splat
  exact broadcastInDim_apply _ bcast_S_S8192x4096 _ i (fun a => a.elim0) (fun a => a.elim0)

/-- A leaky-relu stage at an index is the scalar step on the entry. -/
theorem leakyV_apply (a : S8192x4096.Idx → EReal) (i : S8192x4096.Idx) : leakyV (F := Ideal) a i = leaky (a i) := by
  unfold leakyV leaky
  simp only [select_apply, cmpf_apply, mulf_apply, splat_apply, Ideal.cmpf_def]
  try rfl

/-- A gelu stage at an index is the scalar step on the entry. -/
theorem geluV_apply (v : S8192x4096.Idx → EReal) (i : S8192x4096.Idx) : geluV (F := Ideal) v i = gelu (v i) := by
  unfold geluV gelu
  simp only [Host.tanh, mulf_apply, addf_apply, splat_apply, Ideal.hostUnary_tanh_def]
  try rfl

/-- The bias spread down the rows reads the bias entry of the column. -/
theorem biasV_apply (b : S4096.Idx → EReal) (p : Fin 8192) (q : Fin 4096) : biasV (F := Ideal) b (ix2 p q) = b (ix1 q) := by
  unfold biasV
  rw [broadcastInDim_apply ![0, 1] bcast_S1x4096_S8192x4096_0_1 _ (ix2 p q) (ix2 (0 : Fin 1) q)
    (fun a => by match a with | ⟨0, _⟩ => rfl | ⟨1, _⟩ => rfl)]
  exact broadcastInDim_apply ![1] bcast_S4096_S1x4096_1 b (ix2 (0 : Fin 1) q) (ix1 q)
    (fun a => by match a with | ⟨0, _⟩ => rfl)

/-- The reference's matrix product has plain dimension numbers. -/
theorem dot_plain : PlainDot.IsPlain (M := 8192) (K := 4096) (N := 4096) dot_S8192x4096_S4096x4096_S8192x4096_1_0_0_1_n_n :=
  ⟨rfl, rfl, rfl, rfl, rfl, rfl⟩

/-- The staged result of the reference is the specification, entry by entry. -/
theorem refResult_eq (x : S8192x4096.Idx → EReal) (w : S4096x4096.Idx → EReal) (b : S4096.Idx → EReal) :
    refResult (F := Ideal) x w b = G x w b := by
  funext i
  obtain ⟨p, q, rfl⟩ : ∃ (p : Fin 8192) (q : Fin 4096), i = ix2 p q := ⟨i 0, i 1, eq_ix2 i⟩
  unfold refResult
  rw [addf_apply, geluV_apply, geluV_apply, leakyV_apply, leakyV_apply, biasV_apply]
  simp only [Host.dotGeneral]
  rw [PlainDot.dotGeneral_plain (M := 8192) (K := 4096) (N := 4096) _ dot_plain]
  rfl

end Cert.ReferenceIdeal.RefIsSpec

end
-- ==== Proof.lean ====
/-
  A fused dense layer: out = gelu (gelu (leaky (leaky (x · w)))) + bias, for x : [8192, 4096], w : [4096, 4096] read as
  K × N, bias : [4096], with leaky the leaky-relu of slope f32(0.01) and gelu the tanh form.

  The kernel tiles the product into 512 × 1024 output tiles and walks the contraction in four blocks of 1024, adding
  each block's partial product (its operands narrowed to bf16 first) to a running accumulator that is zeroed at the first
  block; at the last block it applies the elementwise chain to the accumulator, adds the bias row and stores the tile. The
  reference takes one matrix product of the whole arrays and applies the same chain, constant for constant.

  On the extended reals a narrowing of the float format is the identity, and both matrix products are sums of the
  products x (p, κ) · w (κ, q). So the two programs differ only in how they group the sum over κ: the kernel as
  ((0 + Σ₀) + Σ₁ + Σ₂) + Σ₃ over four consecutive ranges, the reference as one sum. Addition of extended reals is
  commutative and associative, so the groupings agree, whatever the inputs: the precondition is not used.

  The modules: Spec (the result function G, the prefix sums and their block step), Pieces / Payloads / Blocks (what a
  control case leaves, each payload at an index, each input block as a piece of its argument), Accum (the accumulator
  after every grid point, by induction along the points; the stored tile), KernelValue (the stored tiles cover the array:
  the kernel's result is G), RefRun / RefValue (the reference's run stage by stage, and its result is G), LibPlainDot (a
  plain matrix product at an index).
-/
import proofs.«155839_j3556232922082_1_alg».proof.Defs
import proofs.«155839_j3556232922082_1_alg».proof.Proof.Gen.Kernel
import proofs.«155839_j3556232922082_1_alg».proof.Proof.Gen.Kernel.Skeleton
import proofs.«155839_j3556232922082_1_alg».proof.Proof.Gen.Kernel.Launch
import proofs.«155839_j3556232922082_1_alg».proof.Proof.Gen.Kernel.Points
import proofs.«155839_j3556232922082_1_alg».proof.Proof.Gen.Kernel.Frame
import proofs.«155839_j3556232922082_1_alg».proof.Proof.Gen.KernelIdeal
import proofs.«155839_j3556232922082_1_alg».proof.Proof.Gen.KernelIdeal.Skeleton
import proofs.«155839_j3556232922082_1_alg».proof.Proof.Gen.KernelIdeal.Launch
import proofs.«155839_j3556232922082_1_alg».proof.Proof.Gen.KernelIdeal.Points
import proofs.«155839_j3556232922082_1_alg».proof.Proof.Gen.KernelIdeal.Frame
import proofs.«155839_j3556232922082_1_alg».proof.Proof.Gen.ReferenceIdeal
import proofs.«155839_j3556232922082_1_alg».proof.Proof.Gen.Pre_finite_inputs
import proofs.«155839_j3556232922082_1_alg».proof.Proof.Gen.KernelIdeal.Value
import proofs.«155839_j3556232922082_1_alg».proof.Proof.KernelValue
import proofs.«155839_j3556232922082_1_alg».proof.Proof.RefValue
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments as they were: its run, with the result forgotten. -/
theorem frame_referenceIdeal : Cert.frame_ReferenceIdeal := fun m ρ _ =>
  (θ_run Cert.ReferenceIdeal.defs _ _).mono (fun _ h c => (h c).2) (Cert.ReferenceIdeal.StagedRun.run (F := Ideal) m ρ)

/-- The idealization rewrote no operation. -/
theorem preserves : Cert.preserves_Kernel_KernelIdeal := trivial

/-- From memories that agree on the three arguments both programs end with the result array at the same function of
    them: the kernel by its accumulated tiles, the reference by its staged run. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.StagedRun.run (F := Ideal) m' ρ')
  rw [Cert.ReferenceIdeal.RefIsSpec.refResult_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
